-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel

variable [Facts]

def fn {F : FTy → Type} [FloatOps F] (main_arg0 : FVec F S8192x2 .f32) : IVec S_ 1 :=
  let main_v0 : FVec F S8192x2 .f32 := Host.absf main_arg0
  let main_cst : FVec F S_ .f32 := constant S_ .f32 0x7F800000#32
  let main_v1 : FVec F S8192x2 .f32 := broadcastInDim S8192x2 ![] bcast_S_S8192x2 main_cst
  let main_v2 : IVec S8192x2 1 := cmpf .olt main_v0 main_v1
  let main_c : IVec S_ 1 := constantI S_ 1 1#1
  let main_v3 : IVec S_ 1 := (fun x v => Host.reduce IntOp.andi x v reducesTo_S8192x2_S_d0_1 h_S_) main_v2 main_c
  main_v3
-- ==== Kernel.lean ====
abbrev S8192x2 : Shape := ⟨2, ![8192, 2]⟩
abbrev S2x8192 : Shape := ⟨2, ![2, 8192]⟩
abbrev S8192x8192 : Shape := ⟨2, ![8192, 8192]⟩
abbrev S1024x2 : Shape := ⟨2, ![1024, 2]⟩
abbrev S2x1024 : Shape := ⟨2, ![2, 1024]⟩
abbrev S1024x1024 : Shape := ⟨2, ![1024, 1024]⟩
abbrev S1024x1 : Shape := ⟨2, ![1024, 1]⟩
abbrev S1x1024 : Shape := ⟨2, ![1, 1024]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S8192x2, .f32⟩
  | .hbm, ⟨1, _⟩ => ⟨S2x8192, .f32⟩
  | .hbm, ⟨2, _⟩ => ⟨S8192x8192, .f32⟩
  | .hbm, ⟨3, _⟩ => ⟨S8192x8192, .i32⟩
  | .hbm, ⟨4, _⟩ => ⟨S_, .i32⟩
  | .hbm, ⟨5, _⟩ => ⟨S8192x8192, .i32⟩
  | .hbm, ⟨6, _⟩ => ⟨S8192x8192, .i1⟩
  | .hbm, ⟨7, _⟩ => ⟨S8192x8192, .i1⟩
  | .local _ .vmem, ⟨0, _⟩ => ⟨S1024x2, .f32⟩
  | .local _ .vmem, ⟨1, _⟩ => ⟨S1024x2, .f32⟩
  | .local _ .vmem, ⟨2, _⟩ => ⟨S2x1024, .f32⟩
  | .local _ .vmem, ⟨3, _⟩ => ⟨S2x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .i32⟩
  | .local _ .vmem, ⟨7, _⟩ => ⟨S1024x1024, .i32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S8192x2_S2x8192_1_0 : S8192x2.Transposes [1, 0] S2x8192
  inb_S1024x2_S1024x2_0_0 : ∀ a, (![0, 0] : Fin 2 → Nat) a + S1024x2.size a ≤ S1024x2.size a
  h_S1024x2 : 0 < S1024x2.numel
  slices_S1024x2_o0_0_S1024x1 : S1024x2.Slices ![0, 0] S1024x1
  slices_S1024x2_o0_1_S1024x1 : S1024x2.Slices ![0, 1] S1024x1
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  slices_S2x1024_o0_0_S1x1024 : S2x1024.Slices ![0, 0] S1x1024
  slices_S2x1024_o1_0_S1x1024 : S2x1024.Slices ![1, 0] S1x1024
  broadcasts_S1x1024_S1024x1024 : S1x1024.Broadcasts S1024x1024
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  natLt_1_32 : 1 < 32
  iota_S1024x1024_d0_w32 : S1024x1024.Iotas .tc 32 [0]
  iota_S1024x1024_d1_w32 : S1024x1024.Iotas .tc 32 [1]
  shapeCasts_S1024x1024_S1024x1024 : S1024x1024.ShapeCasts S1024x1024
  bcast_S_S8192x8192 : S_.BroadcastsInDim S8192x8192 (![] : Fin 0 → Fin S8192x8192.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S8192x2.size a
  hwx0_0 : ∀ i : grid0.Coords, EltTy.bits .f32 = 32 ∨ (Rect.block (s := S8192x2) S1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024.size a ≤ S2x8192.size a
  hwx0_1 : ∀ i : grid0.Coords, EltTy.bits .f32 = 32 ∨ (Rect.block (s := S2x8192) S2x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .i32 = 32 ∨ (Rect.block (s := S8192x8192) S1024x1024.size (cc0_transform_3 i) (hinb0_3 i)).WholeWords (EltTy.packing .i32)

variable [Facts₀]

abbrev win0_0 : Pipeline.Window sig grid0 :=
  Pipeline.Window.ofSpec (Memref.whole main_arg0) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2 : Shape := ⟨2, ![8192, 2]⟩
abbrev S1x8192x2 : Shape := ⟨3, ![1, 8192, 2]⟩
abbrev S8192x1x2 : Shape := ⟨3, ![8192, 1, 2]⟩
abbrev S8192x8192x2 : Shape := ⟨3, ![8192, 8192, 2]⟩
abbrev S_ : Shape := ⟨0, ![]⟩
abbrev S8192x8192 : Shape := ⟨2, ![8192, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x2, .f32⟩
  | .hbm, ⟨1, _⟩ => ⟨S1x8192x2, .f32⟩
  | .hbm, ⟨2, _⟩ => ⟨S8192x1x2, .f32⟩
  | .hbm, ⟨3, _⟩ => ⟨S8192x8192x2, .f32⟩
  | .hbm, ⟨4, _⟩ => ⟨S8192x8192x2, .f32⟩
  | .hbm, ⟨5, _⟩ => ⟨S8192x8192x2, .f32⟩
  | .hbm, ⟨6, _⟩ => ⟨S_, .f32⟩
  | .hbm, ⟨7, _⟩ => ⟨S8192x8192x2, .f32⟩
  | .hbm, ⟨8, _⟩ => ⟨S8192x8192x2, .f32⟩
  | .hbm, ⟨9, _⟩ => ⟨S8192x8192x2, .f32⟩
  | .hbm, ⟨10, _⟩ => ⟨S_, .f32⟩
  | .hbm, ⟨11, _⟩ => ⟨S8192x8192x2, .f32⟩
  | .hbm, ⟨12, _⟩ => ⟨S8192x8192x2, .f32⟩
  | .hbm, ⟨13, _⟩ => ⟨S8192x8192x2, .f32⟩
  | .hbm, ⟨14, _⟩ => ⟨S8192x8192x2, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S8192x8192, .i32⟩
  | .hbm, ⟨22, _⟩ => ⟨S8192x8192, .i32⟩
  | .hbm, ⟨23, _⟩ => ⟨S_, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S8192x8192, .i1⟩
  | .hbm, ⟨28, _⟩ => ⟨S8192x8192, .i1⟩
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]

class Facts₀ : Prop where
  bcast_S8192x2_S1x8192x2_1_2 : S8192x2.BroadcastsInDim S1x8192x2 (![1, 2] : Fin 2 → Fin S1x8192x2.rank)
  bcast_S8192x2_S8192x1x2_0_2 : S8192x2.BroadcastsInDim S8192x1x2 (![0, 2] : Fin 2 → Fin S8192x1x2.rank)
  bcast_S1x8192x2_S8192x8192x2_0_1_2 : S1x8192x2.BroadcastsInDim S8192x8192x2 (![0, 1, 2] : Fin 3 → Fin S8192x8192x2.rank)
  bcast_S8192x1x2_S8192x8192x2_0_1_2 : S8192x1x2.BroadcastsInDim S8192x8192x2 (![0, 1, 2] : Fin 3 → Fin S8192x8192x2.rank)
  bcast_S_S8192x8192x2 : S_.BroadcastsInDim S8192x8192x2 (![] : Fin 0 → Fin S8192x8192x2.rank)
  reducesTo_S8192x8192x2_S8192x8192_d2 : S8192x8192x2.ReducesTo [2] S8192x8192
  h_S_ : 0 < S_.numel
  bcast_S_S8192x8192 : S_.BroadcastsInDim S8192x8192 (![] : Fin 0 → Fin S8192x8192.rank)

variable [Facts₀]

class Facts : Prop extends Facts₀ where

variable [Facts]
-- ==== Proof.TilePieces.lean ====
/-
  What one run of the kernel body leaves in its two output buffers, as values of the two input blocks.

  The body stores the distance tile once, and the mask tile (as 32-bit words) once; on a diagonal tile it then reads the
  mask tile back, clears the tile's own diagonal and stores it again. So the distance buffer ends at the first payload in
  both cases, and the mask buffer ends at the second payload off the diagonal and at the third payload OF the second on it.
-/
import proofs.«414038_j85787676770519_3_alg».proof.Proof.Gen.KernelIdeal.Frame
import Idealize.ShloMosaic.Lib.Pipeline.Value
import Idealize.ShloMosaic.Lib.Tactic

noncomputable section

namespace Cert.KernelIdeal.Tile

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- Off the diagonal the distance buffer ends at the distance payload of the two input blocks. -/
theorem dist_off (c : Dev nD) (i : grid0.Coords) (arg2 : Memref sig .tc .vmem S1024x2 .f32) (harg2 : arg2.IsWhole)
    (arg3 : Memref sig .tc .vmem S2x1024 .f32) (harg3 : arg3.IsWhole) (arg4 : Memref sig .tc .vmem S1024x1024 .f32) (harg4 : arg4.IsWhole)
    (arg5 : Memref sig .tc .vmem S1024x1024 .i32) (harg5 : arg5.IsWhole) (hc0 : ¬cond0_0 i)
    (x0 : Vec F S1024x2 .f32) (x1 : Vec F S2x1024 .f32) :
    out0_B_2 c i arg2 harg2 arg3 harg3 arg4 harg4 arg5 harg5 hc0 x0 x1 = k0_pay1 x0 x1 := by
  unfold out0_B_2
  rw [View.read_writes_eq_canon _ _ _ (cover0_B_2 c i arg2 harg2 arg3 harg3 arg4 harg4 arg5 harg5 hc0 x0 x1)]
  unfold kernelRun0_B
  dsimp only
  sl_unfold_words
  rw [View.canon_unit_zero hz]
  simp only [View.readAt_eq_ld, harg2.read_unread, harg3.read_unread, View.ld_unit_zero (S := S1024x2) hz,
    View.ld_unit_zero (S := S2x1024) hz]

/-- Off the diagonal the mask buffer ends at the widened "near" payload. -/
theorem mask_off (c : Dev nD) (i : grid0.Coords) (arg2 : Memref sig .tc .vmem S1024x2 .f32) (harg2 : arg2.IsWhole)
    (arg3 : Memref sig .tc .vmem S2x1024 .f32) (harg3 : arg3.IsWhole) (arg4 : Memref sig .tc .vmem S1024x1024 .f32) (harg4 : arg4.IsWhole)
    (arg5 : Memref sig .tc .vmem S1024x1024 .i32) (harg5 : arg5.IsWhole) (hc0 : ¬cond0_0 i)
    (x0 : Vec F S1024x2 .f32) (x1 : Vec F S2x1024 .f32) :
    out0_B_3 c i arg2 harg2 arg3 harg3 arg4 harg4 arg5 harg5 hc0 x0 x1 = k0_pay2 x0 x1 := by
  unfold out0_B_3
  rw [View.read_writes_eq_canon _ _ _ (cover0_B_3 c i arg2 harg2 arg3 harg3 arg4 harg4 arg5 harg5 hc0 x0 x1)]
  unfold kernelRun0_B
  dsimp only
  sl_unfold_words
  rw [View.canon_unit_zero hz]
  simp only [View.readAt_eq_ld, harg2.read_unread, harg3.read_unread, View.ld_unit_zero (S := S1024x2) hz,
    View.ld_unit_zero (S := S2x1024) hz]

/-- On the diagonal the distance buffer ends at the same distance payload. -/
theorem dist_on (c : Dev nD) (i : grid0.Coords) (arg2 : Memref sig .tc .vmem S1024x2 .f32) (harg2 : arg2.IsWhole)
    (arg3 : Memref sig .tc .vmem S2x1024 .f32) (harg3 : arg3.IsWhole) (arg4 : Memref sig .tc .vmem S1024x1024 .f32) (harg4 : arg4.IsWhole)
    (arg5 : Memref sig .tc .vmem S1024x1024 .i32) (harg5 : arg5.IsWhole) (hc0 : cond0_0 i)
    (x0 : Vec F S1024x2 .f32) (x1 : Vec F S2x1024 .f32) :
    out0_A_2 c i arg2 harg2 arg3 harg3 arg4 harg4 arg5 harg5 hc0 x0 x1 = k0_pay1 x0 x1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero hz]
  simp only [View.readAt_eq_ld, harg2.read_unread, harg3.read_unread, View.ld_unit_zero (S := S1024x2) hz,
    View.ld_unit_zero (S := S2x1024) hz]

/-- On the diagonal the mask buffer ends at the diagonal-clearing payload of what the first store left there. -/
theorem mask_on (c : Dev nD) (i : grid0.Coords) (arg2 : Memref sig .tc .vmem S1024x2 .f32) (harg2 : arg2.IsWhole)
    (arg3 : Memref sig .tc .vmem S2x1024 .f32) (harg3 : arg3.IsWhole) (arg4 : Memref sig .tc .vmem S1024x1024 .f32) (harg4 : arg4.IsWhole)
    (arg5 : Memref sig .tc .vmem S1024x1024 .i32) (harg5 : arg5.IsWhole) (hc0 : cond0_0 i)
    (x0 : Vec F S1024x2 .f32) (x1 : Vec F S2x1024 .f32) :
    out0_A_3 c i arg2 harg2 arg3 harg3 arg4 harg4 arg5 harg5 hc0 x0 x1 = k0_pay3 (F := F) (k0_pay2 x0 x1) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1024x1024) hz, View.readCov_unit_zero (S := S1024x1024) _ hz]
  simp only [View.readAt_eq_ld, harg2.read_unread, harg3.read_unread, View.ld_unit_zero (S := S1024x2) hz,
    View.ld_unit_zero (S := S2x1024) hz]

end Cert.KernelIdeal.Tile

end
-- ==== Proof.MinImage.lean ====
/-
  The mathematics both programs compute, stated once over the extended reals.

  For points x : [8192, 2] the pair (r, c) gets the separation x[c, d] - x[r, d] on each of the two axes, wrapped to the
  periodic box of length 1 by the minimum-image rule  a ↦ a - 1 · round(a · 1)  (round to nearest, ties to even), and then
  the Euclidean length  sqrt (w₀ · w₀ + w₁ · w₁).  The pair is an edge when that length is below the radius and r ≠ c.
  Everything here is a function of four numbers — the two coordinates of each point — so that a tile of the kernel and the
  whole-array reference can both be read as instances of it.
-/
import Idealize.ShloMosaic.PureOps.Ideal
import Idealize.ShloMosaic.PureOps.Ideal.Laws
import Idealize.ShloMosaic.PureOps.IdealRules
import Idealize.ShloMosaic.Lib.ValueIdx

noncomputable section

namespace Cert.MinImage

open Idealize.ShloMosaic Idealize.ShloMosaic.ValueIdx

/-- The box length, as the word both programs spell it (1.0). -/
abbrev box : Ideal .f32 := Ideal.ofBits .f32 0x3F800000#32
/-- The interaction radius, as the word both programs spell it (the f32 nearest 0.1). -/
abbrev radius : Ideal .f32 := Ideal.ofBits .f32 0x3DCCCCCD#32

/-- The box length denotes the real 1. -/
theorem box_eq_one : box = 1 := IdealRules.sign_bit.ideal_onePat .f32

/-- Minimum-image wrap of one separation. -/
def wrap (a : Ideal .f32) : Ideal .f32 := a - box * Ideal.liftRound Ideal.roundHalfEven (a * box)

/-- Dividing by the box length is multiplying by it: the length is 1, at the infinities too. -/
theorem div_box (a : Ideal .f32) : Ideal.div a box = a * box := by
  rw [box_eq_one]
  have h := Ideal.div_coe (y := 1) one_ne_zero a
  simpa using h

/-- The wrapped distance between a point (a₀, a₁) and a point (b₀, b₁). -/
def dist (a0 a1 b0 b1 : Ideal .f32) : Ideal .f32 :=
  Ideal.sqrt (wrap (b0 - a0) * wrap (b0 - a0) + wrap (b1 - a1) * wrap (b1 - a1))

/-- "closer than the radius", as one bit. -/
def near (a0 a1 b0 b1 : Ideal .f32) : BitVec 1 := Ideal.cmp .olt (dist a0 a1 b0 b1) radius

/-- The points' array shape and the pairs' array shape. -/
abbrev Pts : Shape := ⟨2, ![8192, 2]⟩
abbrev Pairs : Shape := ⟨2, ![8192, 8192]⟩

/-- The distance matrix: entry (r, c) is the wrapped distance from point r to point c. -/
def distMat (x : Pts.Idx → Ideal .f32) : Pairs.Idx → Ideal .f32 := fun i =>
  dist (x (ix2 (i 0) 0)) (x (ix2 (i 0) 1)) (x (ix2 (i 1) 0)) (x (ix2 (i 1) 1))

/-- The edge mask: near, and off the diagonal. -/
def edgeMat (x : Pts.Idx → Ideal .f32) : Pairs.Idx → BitVec 1 := fun i =>
  if (i 0).val = (i 1).val then 0#1
  else near (x (ix2 (i 0) 0)) (x (ix2 (i 0) 1)) (x (ix2 (i 1) 0)) (x (ix2 (i 1) 1))

/-! ## One-bit facts the mask's two spellings meet at -/

/-- A bit widened to a word is nonzero exactly when the bit is set. -/
theorem ne_zero_setWidth (b : BitVec 1) : IntOp.cmpi .ne (b.setWidth 32) 0#32 = b := by
  revert b; decide

/-- Conjunction with the all-ones bit changes nothing; with the zero bit it clears. -/
theorem and_one (b : BitVec 1) : IntOp.andi b 1#1 = b := by revert b; decide
theorem and_zero (b : BitVec 1) : IntOp.andi b 0#1 = 0#1 := by revert b; decide

end Cert.MinImage

end
-- ==== Proof.LibColBroadcast.lean ====
/-
  A column broadcast over many columns, read at an index (the companion of the library's one-row form
  `broadcastTo_1b_ab_apply`), and a compare of two small naturals as 32-bit words.
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two naturals below 2³² differ as 32-bit words exactly when they differ. -/
theorem cmpi_ne_ofNat (a b : ℕ) (ha : a < 2 ^ 32) (hb : b < 2 ^ 32) :
    IntOp.cmpi .ne (BitVec.ofNat 32 a) (BitVec.ofNat 32 b) = if a = b then 0#1 else 1#1 := by
  unfold IntOp.cmpi
  by_cases h : a = b
  · rw [if_pos h, h]; simp
  · rw [if_neg h]
    have hb' : (BitVec.ofNat 32 a != BitVec.ofNat 32 b) = true := by
      rw [bne_iff_ne]
      intro e
      have := congrArg BitVec.toNat e
      simp only [BitVec.toNat_ofNat] at this
      rw [Nat.mod_eq_of_lt ha, Nat.mod_eq_of_lt hb] at this
      exact h this
    simp [hb']

end Idealize.ShloMosaic.ValueIdx
-- ==== Proof.TileValue.lean ====
/-
  The three payloads of the kernel body read at an entry (p, q) of a tile, over the extended reals.

  With x0 the tile's 1024 row points ([1024, 2]) and x1 its 1024 column points, transposed ([2, 1024]):
  the distance payload at (p, q) is the minimum-image distance from row point p to column point q; the mask payload is the
  "near" bit of that pair widened to a word; the diagonal-clearing payload keeps a word's nonzero-ness exactly off p = q.
-/
import proofs.«414038_j85787676770519_3_alg».proof.Proof.Gen.KernelIdeal.Skeleton
import proofs.«414038_j85787676770519_3_alg».proof.Proof.MinImage
import proofs.«414038_j85787676770519_3_alg».proof.Proof.LibColBroadcast
import Idealize.ShloMosaic.Lib.ValueLayout

noncomputable section

namespace Cert.KernelIdeal.Tile

open Cert.KernelIdeal Cert.KernelIdeal.Gen Cert.MinImage
open Idealize.ShloMosaic Idealize.ShloMosaic.ValueIdx

/-- Row point p's coordinate d, through the body's column slice and its broadcast along the tile's columns. -/
theorem row_coord (x0 : FVec Ideal S1024x2 .f32) (d : Fin 2) (h : S1024x2.Slices ![0, d.val] S1024x1)
    (hb : S1024x1.Broadcasts S1024x1024) (p q : Fin 1024) :
    broadcastTo S1024x1024 (extractStridedSlice S1024x1 ![0, d.val] x0 h) hb (ix2 p q) = x0 (ix2 p d) := by
  rw [broadcastTo_a1_ab_apply]
  exact slice2_axis1_apply d.val x0 h p (0 : Fin 1) d rfl

/-- Column point q's coordinate d, through the body's row slice and its broadcast along the tile's rows. -/
theorem col_coord (x1 : FVec Ideal S2x1024 .f32) (d : Fin 2) (h : S2x1024.Slices ![d.val, 0] S1x1024)
    (hb : S1x1024.Broadcasts S1024x1024) (p q : Fin 1024) :
    broadcastTo S1024x1024 (extractStridedSlice S1x1024 ![d.val, 0] x1 h) hb (ix2 p q) = x1 (ix2 d q) := by
  rw [broadcastTo_1b_ab_apply]
  exact slice2_axis0_apply d.val x1 h (0 : Fin 1) q d rfl

/-- The distance payload at (p, q). -/
theorem dist_at (x0 : FVec Ideal S1024x2 .f32) (x1 : FVec Ideal S2x1024 .f32) (p q : Fin 1024) :
    k0_pay1 (F := Ideal) x0 x1 (ix2 p q)
      = dist (x0 (ix2 p 0)) (x0 (ix2 p 1)) (x1 (ix2 0 q)) (x1 (ix2 1 q)) := by
  have e : k0_pay1 (F := Ideal) x0 x1 (ix2 p q) = dist
      (broadcastTo S1024x1024 (extractStridedSlice S1024x1 ![0, (0 : Fin 2).val] x0 slices_S1024x2_o0_0_S1024x1) broadcasts_S1024x1_S1024x1024 (ix2 p q))
      (broadcastTo S1024x1024 (extractStridedSlice S1024x1 ![0, (1 : Fin 2).val] x0 slices_S1024x2_o0_1_S1024x1) broadcasts_S1024x1_S1024x1024 (ix2 p q))
      (broadcastTo S1024x1024 (extractStridedSlice S1x1024 ![(0 : Fin 2).val, 0] (shapeCast S2x1024 x1 shapeCasts_S2x1024_S2x1024) slices_S2x1024_o0_0_S1x1024) broadcasts_S1x1024_S1024x1024 (ix2 p q))
      (broadcastTo S1024x1024 (extractStridedSlice S1x1024 ![(1 : Fin 2).val, 0] (shapeCast S2x1024 x1 shapeCasts_S2x1024_S2x1024) slices_S2x1024_o1_0_S1x1024) broadcasts_S1x1024_S1024x1024 (ix2 p q)) := rfl
  rw [e, shapeCast_self, row_coord, row_coord, col_coord, col_coord]

/-- The mask payload at (p, q): the pair's "near" bit, widened. -/
theorem near_at (x0 : FVec Ideal S1024x2 .f32) (x1 : FVec Ideal S2x1024 .f32) (p q : Fin 1024) :
    k0_pay2 (F := Ideal) x0 x1 (ix2 p q)
      = (near (x0 (ix2 p 0)) (x0 (ix2 p 1)) (x1 (ix2 0 q)) (x1 (ix2 1 q))).setWidth 32 := by
  have e : k0_pay2 (F := Ideal) x0 x1 (ix2 p q)
      = (Ideal.cmp .olt (k0_pay1 (F := Ideal) x0 x1 (ix2 p q)) radius).setWidth 32 := rfl
  rw [e, dist_at]
  rfl

/-- The diagonal-clearing payload at (p, q): "the word is nonzero, and p ≠ q", widened. -/
theorem clear_at (v : IVec S1024x1024 32) (p q : Fin 1024) :
    k0_pay3 (F := Ideal) v (ix2 p q)
      = (IntOp.andi (IntOp.cmpi .ne (v (ix2 p q)) 0#32) (if p.val = q.val then 0#1 else 1#1)).setWidth 32 := by
  have e : k0_pay3 (F := Ideal) v (ix2 p q)
      = (IntOp.andi (IntOp.cmpi .ne (shapeCast S1024x1024 v shapeCasts_S1024x1024_S1024x1024 (ix2 p q)) 0#32)
          (IntOp.cmpi .ne (iota .tc S1024x1024 32 [0] iota_S1024x1024_d0_w32 (ix2 p q))
            (iota .tc S1024x1024 32 [1] iota_S1024x1024_d1_w32 (ix2 p q)))).setWidth 32 := rfl
  rw [e, shapeCast_self, iota_single_apply, iota_single_apply]
  show (IntOp.andi _ (IntOp.cmpi .ne (BitVec.ofNat 32 p.val) (BitVec.ofNat 32 q.val))).setWidth 32 = _
  rw [cmpi_ne_ofNat p.val q.val (by have := p.isLt; omega) (by have := q.isLt; omega)]

/-- On a diagonal tile the mask buffer's entry (p, q): cleared where p = q, the pair's "near" bit elsewhere. -/
theorem cleared_near_at (x0 : FVec Ideal S1024x2 .f32) (x1 : FVec Ideal S2x1024 .f32) (p q : Fin 1024) :
    k0_pay3 (F := Ideal) (k0_pay2 (F := Ideal) x0 x1) (ix2 p q)
      = (if p.val = q.val then 0#1 else near (x0 (ix2 p 0)) (x0 (ix2 p 1)) (x1 (ix2 0 q)) (x1 (ix2 1 q))).setWidth 32 := by
  rw [clear_at, near_at, ne_zero_setWidth]
  by_cases h : p.val = q.val
  · rw [if_pos h, if_pos h, and_zero]
  · rw [if_neg h, if_neg h, and_one]

end Cert.KernelIdeal.Tile

end
-- ==== Proof.KernelArrays.lean ====
/-
  From tiles to arrays: what the kernel's two result arrays hold after the run, as functions of the points array.

  Grid point t carries a tile index (bi, bj), 0 ≤ bi, bj ≤ 7. Its row block is rows 1024·bi … of the points array, its
  column block is columns 1024·bj … of the transposed points array (written by the transpose before the region), and it
  writes tile (bi, bj) of both outputs. Entry (p, q) of the tile is entry (1024·bi + p, 1024·bj + q) of the array, so the
  distance tile is that block of ONE distance matrix. For the mask, a tile with bi ≠ bj never meets the diagonal
  (p, q < 1024), and on a tile with bi = bj the array's diagonal is the tile's own: both cases are that block of ONE mask.
  The 64 tiles cover the arrays. After the region the host turns the mask's words into bits by comparing with zero.
-/
import proofs.«414038_j85787676770519_3_alg».proof.Defs
import proofs.«414038_j85787676770519_3_alg».proof.Proof.TilePieces
import proofs.«414038_j85787676770519_3_alg».proof.Proof.TileValue
import Idealize.ShloMosaic.Lib.StableHlo.Run

set_option maxRecDepth 16384

noncomputable section

namespace Cert.KernelIdeal.Arrays

open Cert.KernelIdeal Cert.KernelIdeal.Gen Cert.KernelIdeal.Tile Cert.MinImage
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The points array and its transpose as the region finds them, and a point's two input blocks, at their literal types. -/
abbrev pts (c : Dev nD) : FVec Ideal S8192x2 .f32 := V m c main_arg0
abbrev ptsT (c : Dev nD) : FVec Ideal S2x8192 .f32 := V m c main_v0
abbrev rowBlk (c : Dev nD) (t : Fin cfg0.N) : FVec Ideal S1024x2 .f32 := iblk m c 0 t
abbrev colBlk (c : Dev nD) (t : Fin cfg0.N) : FVec Ideal S2x1024 .f32 := iblk m c 1 t

/-- The printed index maps over the grid: the row block follows the output tile's row index, the column block its column
    index, both outputs share one tile index, each index is at most 7, and the diagonal tiles are the points ≡ 0 (mod 9). -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_3.index t (0 : Fin 2) = win0_2.index t (0 : Fin 2) ∧ win0_3.index t (1 : Fin 2) = win0_2.index t (1 : Fin 2)
    ∧ win0_2.index t (0 : Fin 2) ≤ 7 ∧ win0_2.index t (1 : Fin 2) ≤ 7
    ∧ (t.val % 9 = 0 ↔ win0_2.index t (0 : Fin 2) = win0_2.index t (1 : Fin 2)) :=
  (by decide +kernel : ∀ t : Fin grid0.N, _)

/-- Every tile index is some point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-! ## The two whole-array functions -/

/-- The distance matrix over a points array and a transposed points array. -/
def distOf (a : FVec Ideal S8192x2 .f32) (aT : FVec Ideal S2x8192 .f32) : FVec Ideal S8192x8192 .f32 := fun i =>
  dist (a (ix2 (i 0) 0)) (a (ix2 (i 0) 1)) (aT (ix2 0 (i 1))) (aT (ix2 1 (i 1)))

/-- The edge mask over them, as words. -/
def maskOf (a : FVec Ideal S8192x2 .f32) (aT : FVec Ideal S2x8192 .f32) : IVec S8192x8192 32 := fun i =>
  (if (i 0).val = (i 1).val then 0#1
    else near (a (ix2 (i 0) 0)) (a (ix2 (i 0) 1)) (aT (ix2 0 (i 1))) (aT (ix2 1 (i 1)))).setWidth 32

/-! ## The input blocks, read in the arrays -/

/-- Row p of point t's row block is row 1024·bi + p of the points array. -/
theorem rowBlk_at (c : Dev nD) (t : Fin cfg0.N) (p : Fin 1024) (d : Fin 2) (r : Fin 8192)
    (hr : r.val = win0_2.index t (0 : Fin 2) * 1024 + p.val) : rowBlk m c t (ix2 p d) = pts m c (ix2 r d) := by
  obtain ⟨e0, e1, -⟩ := idx_facts t
  show V m c main_arg0 (((cfg0.win 0).blk t).view.emb (ix2 p d)) = V m c main_arg0 (ix2 r d)
  refine congrArg _ (funext fun a => Fin.ext ?_)
  match a with
  | ⟨0, _⟩ => show win0_0.index t (0 : Fin 2) * 1024 + 1 * p.val = r.val; omega
  | ⟨1, _⟩ => show win0_0.index t (1 : Fin 2) * 2 + 1 * d.val = d.val; omega

/-- Column q of point t's column block is column 1024·bj + q of the transposed points array. -/
theorem colBlk_at (c : Dev nD) (t : Fin cfg0.N) (q : Fin 1024) (d : Fin 2) (k : Fin 8192)
    (hk : k.val = win0_2.index t (1 : Fin 2) * 1024 + q.val) : colBlk m c t (ix2 d q) = ptsT m c (ix2 d k) := by
  obtain ⟨-, -, e2, e3, -⟩ := idx_facts t
  show V m c main_v0 (((cfg0.win 1).blk t).view.emb (ix2 d q)) = V m c main_v0 (ix2 d k)
  refine congrArg _ (funext fun a => Fin.ext ?_)
  match a with
  | ⟨0, _⟩ => show win0_1.index t (0 : Fin 2) * 2 + 1 * d.val = d.val; omega
  | ⟨1, _⟩ => show win0_1.index t (1 : Fin 2) * 1024 + 1 * q.val = k.val; omega

/-! ## What a point leaves in the two output buffers -/

/-- The distance buffer after point t: the distance payload of the point's blocks, in both cases. -/
theorem dist_payload (c : Dev nD) (t : Fin cfg0.N) :
    (outsAt0 m c t.val t.isLt).1 = k0_pay1 (F := Ideal) (rowBlk m c t) (colBlk m c t) := by
  by_cases h0 : t.val % 9 = 0
  · rw [outsAt0_A m c t h0]; dsimp only
    exact dist_on (F := Ideal) c (grid0.coords t) (ms0_0 t) (hs0_0 t) (ms0_1 t) (hs0_1 t) (ms0_2 t) (hs0_2 t) (ms0_3 t) (hs0_3 t)
      ((hcond0_0 t).mpr h0) (iblk m c 0 t) (iblk m c 1 t)
  · rw [outsAt0_B m c t h0]; dsimp only
    exact dist_off (F := Ideal) c (grid0.coords t) (ms0_0 t) (hs0_0 t) (ms0_1 t) (hs0_1 t) (ms0_2 t) (hs0_2 t) (ms0_3 t) (hs0_3 t)
      (fun h => h0 ((hcond0_0 t).mp h)) (iblk m c 0 t) (iblk m c 1 t)

/-- The mask buffer after a diagonal point: the cleared mask payload. -/
theorem mask_payload_on (c : Dev nD) (t : Fin cfg0.N) (h0 : t.val % 9 = 0) :
    (outsAt0 m c t.val t.isLt).2 = k0_pay3 (F := Ideal) (k0_pay2 (F := Ideal) (rowBlk m c t) (colBlk m c t)) := by
  rw [outsAt0_A m c t h0]; dsimp only
  exact mask_on (F := Ideal) c (grid0.coords t) (ms0_0 t) (hs0_0 t) (ms0_1 t) (hs0_1 t) (ms0_2 t) (hs0_2 t) (ms0_3 t) (hs0_3 t)
    ((hcond0_0 t).mpr h0) (iblk m c 0 t) (iblk m c 1 t)

/-- The mask buffer after an off-diagonal point: the mask payload. -/
theorem mask_payload_off (c : Dev nD) (t : Fin cfg0.N) (h0 : ¬t.val % 9 = 0) :
    (outsAt0 m c t.val t.isLt).2 = k0_pay2 (F := Ideal) (rowBlk m c t) (colBlk m c t) := by
  rw [outsAt0_B m c t h0]; dsimp only
  exact mask_off (F := Ideal) c (grid0.coords t) (ms0_0 t) (hs0_0 t) (ms0_1 t) (hs0_1 t) (ms0_2 t) (hs0_2 t) (ms0_3 t) (hs0_3 t)
    (fun h => h0 ((hcond0_0 t).mp h)) (iblk m c 0 t) (iblk m c 1 t)

/-! ## What a point writes back is its tile of the whole-array function -/

theorem flushed_dist (c : Dev nD) (t : Fin cfg0.N) :
    (dats m 0 c).flushed 2 t = ((cfg0.win 2).blk t).view.read (Elt Ideal) (distOf (pts m c) (ptsT m c)) := by
  show (cfg0.win 2).cut (grid0.coords t) ((dats m 0 c).after 2 t) = _
  rw [after0_2, dist_payload]
  funext j
  obtain ⟨p, q, rfl⟩ : ∃ (p q : Fin 1024), j = ix2 p q := ⟨j 0, j 1, eq_ix2 j⟩
  show k0_pay1 (F := Ideal) (rowBlk m c t) (colBlk m c t) (ix2 p q)
    = distOf (pts m c) (ptsT m c) (((cfg0.win 2).blk t).view.emb (ix2 p q))
  refine (dist_at (rowBlk m c t) (colBlk m c t) p q).trans ?_
  have hr : ((((cfg0.win 2).blk t).view.emb (ix2 p q)) 0).val = win0_2.index t (0 : Fin 2) * 1024 + p.val := by
    show win0_2.index t (0 : Fin 2) * 1024 + 1 * p.val = _; omega
  have hk : ((((cfg0.win 2).blk t).view.emb (ix2 p q)) 1).val = win0_2.index t (1 : Fin 2) * 1024 + q.val := by
    show win0_2.index t (1 : Fin 2) * 1024 + 1 * q.val = _; omega
  have h1 := rowBlk_at m c t p 0 _ hr
  have h2 := rowBlk_at m c t p 1 _ hr
  have h3 := colBlk_at m c t q 0 _ hk
  have h4 := colBlk_at m c t q 1 _ hk
  rw [h1, h2, h3, h4]
  rfl

theorem flushed_mask (c : Dev nD) (t : Fin cfg0.N) :
    (dats m 0 c).flushed 3 t = ((cfg0.win 3).blk t).view.read (Elt Ideal) (maskOf (pts m c) (ptsT m c)) := by
  show (cfg0.win 3).cut (grid0.coords t) ((dats m 0 c).after 3 t) = _
  rw [after0_3]
  obtain ⟨-, -, -, -, e4, e5, b0, b1, hd⟩ := idx_facts t
  funext j
  obtain ⟨p, q, rfl⟩ : ∃ (p q : Fin 1024), j = ix2 p q := ⟨j 0, j 1, eq_ix2 j⟩
  have hp : p.val < 1024 := p.isLt
  have hq : q.val < 1024 := q.isLt
  have hr : ((((cfg0.win 3).blk t).view.emb (ix2 p q)) 0).val = win0_2.index t (0 : Fin 2) * 1024 + p.val := by
    show win0_3.index t (0 : Fin 2) * 1024 + 1 * p.val = _; omega
  have hk : ((((cfg0.win 3).blk t).view.emb (ix2 p q)) 1).val = win0_2.index t (1 : Fin 2) * 1024 + q.val := by
    show win0_3.index t (1 : Fin 2) * 1024 + 1 * q.val = _; omega
  have h1 := rowBlk_at m c t p 0 _ hr
  have h2 := rowBlk_at m c t p 1 _ hr
  have h3 := colBlk_at m c t q 0 _ hk
  have h4 := colBlk_at m c t q 1 _ hk
  by_cases h0 : t.val % 9 = 0
  · rw [mask_payload_on m c t h0]
    show k0_pay3 (F := Ideal) (k0_pay2 (F := Ideal) (rowBlk m c t) (colBlk m c t)) (ix2 p q)
      = maskOf (pts m c) (ptsT m c) (((cfg0.win 3).blk t).view.emb (ix2 p q))
    refine (cleared_near_at (rowBlk m c t) (colBlk m c t) p q).trans ?_
    have hb := hd.mp h0
    have hiff : (p.val = q.val) ↔ ((((cfg0.win 3).blk t).view.emb (ix2 p q)) 0).val = ((((cfg0.win 3).blk t).view.emb (ix2 p q)) 1).val := by
      rw [hr, hk, hb]; omega
    rw [h1, h2, h3, h4]
    unfold maskOf
    by_cases hpq : p.val = q.val
    · rw [if_pos hpq, if_pos (hiff.mp hpq)]
    · rw [if_neg hpq, if_neg (fun h => hpq (hiff.mpr h))]
  · rw [mask_payload_off m c t h0]
    show k0_pay2 (F := Ideal) (rowBlk m c t) (colBlk m c t) (ix2 p q)
      = maskOf (pts m c) (ptsT m c) (((cfg0.win 3).blk t).view.emb (ix2 p q))
    refine (near_at (rowBlk m c t) (colBlk m c t) p q).trans ?_
    have hb : win0_2.index t (0 : Fin 2) ≠ win0_2.index t (1 : Fin 2) := fun h => h0 (hd.mpr h)
    have hne : ¬((((cfg0.win 3).blk t).view.emb (ix2 p q)) 0).val = ((((cfg0.win 3).blk t).view.emb (ix2 p q)) 1).val := by
      rw [hr, hk]; omega
    rw [h1, h2, h3, h4]
    unfold maskOf
    rw [if_neg hne]

/-! ## The tiles cover the arrays -/

/-- An entry is in point t's distance tile iff each coordinate is in the tile's range. -/
theorem mem_tile_dist (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v1_0).slice (win0_2.rect t)).set ↔ _
  rw [View.set_slice_whole, Rect.mem_set_unit]
  exact Iff.rfl

/-- The same for the mask tile. -/
theorem mem_tile_mask (t : Fin cfg0.N) (i : S8192x8192.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1_1).slice (win0_3.rect t)).set ↔ _
  rw [View.set_slice_whole, Rect.mem_set_unit]
  exact Iff.rfl

/-- Entry (r, k) lies in the tile of the point with tile index (r / 1024, k / 1024). -/
theorem cover_dist (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile_dist]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

theorem cover_mask (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  obtain ⟨-, -, -, -, e4, e5, -⟩ := idx_facts t
  refine ⟨t, flush0_3 t, ?_⟩
  rw [mem_tile_mask]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The distance array after the run. -/
theorem final_dist (c : Dev nD) : (dats m 0 c).arrAt 2 cfg0.N = distOf (pts m c) (ptsT m c) :=
  (dats m 0 c).arrAt_eq_of_cover 2 (distOf (pts m c) (ptsT m c)) (fun t _ => flushed_dist m c t) cover_dist

/-- The mask array (words) after the run. -/
theorem final_mask (c : Dev nD) : (dats m 0 c).arrAt 3 cfg0.N = maskOf (pts m c) (ptsT m c) :=
  (dats m 0 c).arrAt_eq_of_cover 3 (maskOf (pts m c) (ptsT m c)) (fun t _ => flushed_mask m c t) cover_mask

/-! ## Around the region: the transpose before it, the compare after it -/

/-- The region finds the points array as launched … -/
theorem pts_eq (c : Dev nD) : pts m c = m ((c : Thread nD τ).loc main_arg0) := V_main_arg0 m c

/-- … and its transpose where the host put it. -/
theorem ptsT_eq (c : Dev nD) :
    ptsT m c = transpose S2x8192 [1, 0] (m ((c : Thread nD τ).loc main_arg0)) transposes_S8192x2_S2x8192_1_0 := by
  show StableHlo.after hostOps0 (fun b => m (c, b)) (Proc.devRef .tc main_v0) = _
  after_results

/-- Over a points array and ITS transpose the two functions are the specification's matrices. -/
theorem distOf_transpose (x : FVec Ideal S8192x2 .f32) (h : S8192x2.Transposes [1, 0] S2x8192) :
    distOf x (transpose S2x8192 [1, 0] x h) = distMat x := by
  funext i
  have e0 := transpose_ix2_apply x h (0 : Fin 2) (i 1)
  have e1 := transpose_ix2_apply x h (1 : Fin 2) (i 1)
  show dist (x (ix2 (i 0) 0)) (x (ix2 (i 0) 1)) (transpose S2x8192 [1, 0] x h (ix2 0 (i 1)))
      (transpose S2x8192 [1, 0] x h (ix2 1 (i 1)))
    = dist (x (ix2 (i 0) 0)) (x (ix2 (i 0) 1)) (x (ix2 (i 1) 0)) (x (ix2 (i 1) 1))
  rw [e0, e1]

theorem maskOf_transpose (x : FVec Ideal S8192x2 .f32) (h : S8192x2.Transposes [1, 0] S2x8192) :
    maskOf x (transpose S2x8192 [1, 0] x h) = fun i => (edgeMat x i).setWidth 32 := by
  funext i
  have e0 := transpose_ix2_apply x h (0 : Fin 2) (i 1)
  have e1 := transpose_ix2_apply x h (1 : Fin 2) (i 1)
  show (if (i 0).val = (i 1).val then 0#1
      else near (x (ix2 (i 0) 0)) (x (ix2 (i 0) 1)) (transpose S2x8192 [1, 0] x h (ix2 0 (i 1)))
        (transpose S2x8192 [1, 0] x h (ix2 1 (i 1)))).setWidth 32
    = (if (i 0).val = (i 1).val then 0#1
      else near (x (ix2 (i 0) 0)) (x (ix2 (i 0) 1)) (x (ix2 (i 1) 0)) (x (ix2 (i 1) 1))).setWidth 32
  rw [e0, e1]

/-- The host's last lines compare the mask's words with zero. -/
theorem tail_eq (c : Dev nD) : Pipeline.afterTail₀ cfgs (dats m) 0 (V0 m) [hostOps1] c main_v4
    = cmpi .ne ((dats m 0 c).arrAt 3 cfg0.N) (broadcastInDim S8192x8192 ![] bcast_S_S8192x8192 (constantI S_ 32 0#32)) := by
  unfold Pipeline.afterTail₀
  show StableHlo.after hostOps1 _ (Proc.devRef .tc main_v4) = _
  after_results
  exact congrArg (fun z => cmpi CmpIPredicate.ne z (broadcastInDim S8192x8192 ![] bcast_S_S8192x8192 (constantI S_ 32 0#32)))
    (Pipeline.withArrays_arr spec0 launch0.win.arr_inj c _ _ 3)

/-- The compare undoes the widening: the mask result is the edge mask. -/
theorem cmp_mask (x : FVec Ideal S8192x2 .f32) :
    cmpi .ne (fun i => (edgeMat x i).setWidth 32 : IVec S8192x8192 32)
      (broadcastInDim S8192x8192 ![] bcast_S_S8192x8192 (constantI S_ 32 0#32)) = edgeMat x := by
  funext i
  exact ne_zero_setWidth (edgeMat x i)

/-! ## The run, read -/

/-- The distance result is the distance matrix of the launched points array. -/
theorem result_dist (c : Dev nD) :
    (dats m 0 c).arrAt 2 cfg0.N = distMat (m ((c : Thread nD τ).loc main_arg0)) := by
  rw [final_dist, pts_eq, ptsT_eq, distOf_transpose]

/-- The mask result is its edge mask. -/
theorem result_mask (c : Dev nD) :
    Pipeline.afterTail₀ cfgs (dats m) 0 (V0 m) [hostOps1] c main_v4 = edgeMat (m ((c : Thread nD τ).loc main_arg0)) := by
  rw [tail_eq, final_mask, pts_eq, ptsT_eq, maskOf_transpose, cmp_mask]

/-- Every weakly fair execution of the kernel program ends with the distance matrix and the edge mask of the points
    array in its two results, the points array unchanged. -/
theorem run : θ_run defs (onTc (τ := τ) (main (F := Ideal))) ⟨m, fun _ => 0, ρ⟩ fun r => ∀ c : Dev nD,
      r.2.mem ((c.tc : Thread nD τ).loc main_v1_0) = distMat (m ((c.tc : Thread nD τ).loc main_arg0))
      ∧ r.2.mem ((c.tc : Thread nD τ).loc main_v4) = edgeMat (m ((c.tc : Thread nD τ).loc main_arg0))
      ∧ r.2.mem ((c.tc : Thread nD τ).loc main_arg0) = m ((c.tc : Thread nD τ).loc main_arg0) :=
  (θ_run defs _ _).mono (fun r h c => ⟨((h c).1 2).trans (result_dist m c),
      ((h c).2 main_v4 (by decide)).trans (result_mask m c),
      ((h c).1 0).trans (((dats m 0 c).arrAt_in 0 rfl _).trans ((A_eq m c 0).trans (V_main_arg0 m c)))⟩)
    (run_main m ρ)

end Cert.KernelIdeal.Arrays

end
-- ==== Proof.RefDist.lean ====
/-
  The reference, read index by index: its distance result is the minimum-image distance matrix and its mask result is the
  edge mask (MinImage.lean), as functions of the points array.

  At pair (r, c) and axis k the reference subtracts x[r, k] (broadcast along c) from x[c, k] (broadcast along r), wraps by
  a - 1 · round(a / 1), squares, sums the two axes from 0, takes the root, compares with the radius and clears the diagonal
  with  not (row + 0 = col).  Against the specification two things differ in spelling only: the division by the box length
  (it is 1: MinImage.div_box) and the sum's leading zero.
-/
import proofs.«414038_j85787676770519_3_alg».proof.Defs
import proofs.«414038_j85787676770519_3_alg».proof.Proof.Gen.ReferenceIdeal.Run
import proofs.«414038_j85787676770519_3_alg».proof.Proof.Gen.ReferenceIdeal.Read
import proofs.«414038_j85787676770519_3_alg».proof.Proof.MinImage

noncomputable section

namespace Cert.ReferenceIdeal.RefDist

open Cert.ReferenceIdeal Cert.ReferenceIdeal.Read Cert.MinImage
open Idealize.ShloMosaic Idealize.ShloMosaic.ValueIdx

/-- Through the two broadcasts, entry (r, c, k) of the row operand is x[r, k] … -/
theorem row_idx (i : S8192x8192.Idx) (k : Fin 2) :
    idx_main_v1 (idx_main_v3 (idx_main_v12 i k)) = ix2 (i 0) k :=
  funext fun a => Fin.ext (by match a with | ⟨0, _⟩ => rfl | ⟨1, _⟩ => rfl)

/-- … and of the column operand x[c, k]. -/
theorem col_idx (i : S8192x8192.Idx) (k : Fin 2) :
    idx_main_v0 (idx_main_v2 (idx_main_v12 i k)) = ix2 (i 1) k :=
  funext fun a => Fin.ext (by match a with | ⟨0, _⟩ => rfl | ⟨1, _⟩ => rfl)

/-- The raw separation on axis k. -/
theorem raw_eq (x : S8192x2.Idx → Ideal .f32) (i : S8192x8192.Idx) (k : Fin 2) :
    val_main_v4 (F := Ideal) x (idx_main_v12 i k) = x (ix2 (i 1) k) - x (ix2 (i 0) k) := by
  rw [val_main_v4_apply, val_main_v2_apply, val_main_v0_apply, val_main_v3_apply, val_main_v1_apply, row_idx, col_idx]
  rfl

/-- The wrapped separation on axis k: the reference's a - 1 · round (a / 1) is the specification's wrap. -/
theorem wrapped_eq (x : S8192x2.Idx → Ideal .f32) (i : S8192x8192.Idx) (k : Fin 2) :
    val_main_v10 (F := Ideal) x (idx_main_v12 i k) = wrap (x (ix2 (i 1) k) - x (ix2 (i 0) k)) := by
  rw [val_main_v10_apply, val_main_v9_apply, val_main_v8_apply, val_main_cst_0_apply, val_main_v7_apply,
    val_main_v6_apply, val_main_v5_apply, val_main_cst_apply, raw_eq]
  show _ - box * Ideal.liftRound Ideal.roundHalfEven (Ideal.div _ box) = _
  rw [div_box]
  rfl

/-- The distance result is the distance matrix. -/
theorem dist_eq (x : S8192x2.Idx → Ideal .f32) : val_main_v13 (F := Ideal) x = distMat x := by
  funext i
  rw [val_main_v13_apply, val_main_v12_apply, Fin.sum_univ_two, val_main_v11_apply, val_main_v11_apply,
    wrapped_eq, wrapped_eq, val_main_cst_1_apply]
  show Ideal.sqrt (Ideal.ofBits .f32 0x00000000#32 + _) = _
  rw [Ideal.ofBits_zero_f32, zero_add]
  rfl

/-- The diagonal test: not (row + 0 = col), as one bit, is set exactly off the diagonal. -/
theorem offdiag_eq (i : S8192x8192.Idx) :
    val_main_v21 (F := Ideal) i = if (i 0).val = (i 1).val then 0#1 else 1#1 := by
  rw [val_main_v21_apply, val_main_v20_apply, val_main_v19_apply, val_main_v16_apply, val_main_v18_apply,
    val_main_c_apply, val_main_v17_apply]
  have h0 : (i 0).val < 8192 := (i 0).isLt
  have h1 : (i 1).val < 8192 := (i 1).isLt
  simp only [IntOp.addi, IntOp.cmpi, BitVec.add_zero]
  by_cases h : (i 0).val = (i 1).val
  · rw [if_pos h, h]; simp
  · rw [if_neg h]
    have hb : (BitVec.ofNat 32 (i 0).val == BitVec.ofNat 32 (i 1).val) = false := by
      rw [beq_eq_false_iff_ne]
      intro e
      have := congrArg BitVec.toNat e
      simp only [BitVec.toNat_ofNat] at this
      omega
    simp [hb]

/-- The mask result is the edge mask. -/
theorem edge_eq (x : S8192x2.Idx → Ideal .f32) : val_main_v22 (F := Ideal) x = edgeMat x := by
  funext i
  rw [val_main_v22_apply, offdiag_eq, val_main_v15_apply, val_main_v14_apply, val_main_cst_2_apply, dist_eq]
  unfold edgeMat
  by_cases h : (i 0).val = (i 1).val
  · rw [if_pos h, if_pos h]; exact and_zero _
  · rw [if_neg h, if_neg h]; exact and_one _

end Cert.ReferenceIdeal.RefDist

end
-- ==== Proof.lean ====
/-
  Pairwise distances under periodic boundary conditions, and the radius graph they define.

  For 8192 points x[·, 0..1] in a box of length 1 both programs compute, for every ordered pair (r, c),
    d(r, c) = sqrt (w₀² + w₁²),   w_k = a_k - 1 · round (a_k · 1),   a_k = x[c, k] - x[r, k]
  (round to nearest, ties to even: the minimum-image separation), and the edge bit  d(r, c) < 0.1  and  r ≠ c.

  The kernel works tile by tile: an 8 × 8 grid of 1024 × 1024 tiles, each from 1024 row points and 1024 column points (the
  latter read from a transposed copy of x); it stores the mask as words, clears the diagonal only on the eight tiles that
  meet it, and the host turns words back into bits. The reference works on the whole [8192, 8192, 2] array of separations,
  divides by the box length where the kernel multiplies, sums the two squares from zero, and clears the diagonal everywhere
  by comparing a row iota with a column iota.

  Over the extended reals the two are the same functions of x, entry by entry: the box length is the real 1, so dividing by
  it is multiplying by it, at the infinities too; 0 + (s₀ + s₁) = s₀ + s₁; a tile off the diagonal of the tile grid has no
  entry with r = c, and on a diagonal tile r = c exactly when the entry's position inside the tile has equal coordinates.
  No finiteness of x is used.

  MinImage.lean       the two matrices as functions of x (the specification), and the one-bit facts
  RefDist.lean        the reference's two results are those matrices
  TilePieces.lean     what one run of the kernel body leaves in its two output buffers
  TileValue.lean      those payloads read at an entry of a tile
  KernelArrays.lean   tiles to arrays; the transpose before and the compare after the region; the kernel's run
  LibColBroadcast.lean  a column broadcast read at an index; comparing two small naturals as words
-/
import proofs.«414038_j85787676770519_3_alg».proof.Defs
import proofs.«414038_j85787676770519_3_alg».proof.Proof.Gen.Kernel
import proofs.«414038_j85787676770519_3_alg».proof.Proof.Gen.Kernel.Frame
import proofs.«414038_j85787676770519_3_alg».proof.Proof.Gen.KernelIdeal
import proofs.«414038_j85787676770519_3_alg».proof.Proof.Gen.KernelIdeal.Frame
import proofs.«414038_j85787676770519_3_alg».proof.Proof.Gen.ReferenceIdeal
import proofs.«414038_j85787676770519_3_alg».proof.Proof.Gen.ReferenceIdeal.Run
import proofs.«414038_j85787676770519_3_alg».proof.Proof.Gen.ReferenceIdeal.Read
import proofs.«414038_j85787676770519_3_alg».proof.Proof.Gen.Pre_finite_inputs
import proofs.«414038_j85787676770519_3_alg».proof.Proof.KernelArrays
import proofs.«414038_j85787676770519_3_alg».proof.Proof.RefDist
import Idealize.ShloMosaic.Adequacy
import Idealize.ShloMosaic.Init

noncomputable section

namespace Cert.Proof

open Idealize.ShloMosaic Idealize.SL.Sem Cert.MinImage

/-- The kernel as printed runs and leaves the points array alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is straight-line host code: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the distance matrix and the edge mask of the same points array. -/
theorem algebraic : Cert.algebraic_KernelIdeal_ReferenceIdeal := by
  intro m ρ m' ρ' _ hagree
  refine ⟨fun c => distMat (m ((c.tc : Thread Cert.KernelIdeal.nD Cert.KernelIdeal.τ).loc Cert.KernelIdeal.main_arg0)),
    fun c => edgeMat (m ((c.tc : Thread Cert.KernelIdeal.nD Cert.KernelIdeal.τ).loc Cert.KernelIdeal.main_arg0)),
    Cert.KernelIdeal.Arrays.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v13_eq, Cert.ReferenceIdeal.RefDist.dist_eq, hagree c]
  · rw [(h c).2.1, Cert.ReferenceIdeal.Read.val_main_v22_eq, Cert.ReferenceIdeal.RefDist.edge_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
